-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x128 : Shape := ⟨2, ![10000, 128]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x64, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.RowsTimes.lean ====
/-
  The product of an M × K matrix with a K × N matrix as ONE function of the two arrays,
      (x · w)(p, q) = Σ_k x(p, k) · w(k, q),
  and the two machine products that compute it at the extended reals: the matrix unit's product into a zero
  accumulator, and the host's `dot_general`; both with the plain dimension numbers (rows × contraction times
  contraction × columns, no batch axis). A row block of the product is the product of the row block.
-/
import proofs.«153725_j14388140441820_1_alg».proof.Proof.LibPlainDot

noncomputable section

namespace Cert.DenseRows

open Idealize.ShloMosaic Idealize.ShloMosaic.ValueIdx

variable {M K N : Nat}

/-- Entry (p, q) of the product: the sum over the shared axis of x(p, k) · w(k, q). -/
def rowsTimes (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- The matrix unit's product into the zero accumulator is the product, whatever formats the operands were cast to. -/
theorem matmul_eq_rowsTimes {φ₁ φ₂ : FTy} (prec : Option ContractPrecision)
    (l : FVec Ideal ⟨2, ![M, K]⟩ φ₁) (r : FVec Ideal ⟨2, ![K, N]⟩ φ₂) :
    matmul (DotDims.plain M K N) prec l r (constant ⟨2, ![M, N]⟩ .f32 0x00000000#32) = rowsTimes l r :=
  funext fun j => Cert.LibPlainDot.matmul_plain_zero prec l r j

/-- The host's `dot_general` is the product. -/
theorem dotGeneral_eq_rowsTimes {φ₁ φ₂ : FTy} (prec : Option ContractPrecision)
    (l : FVec Ideal ⟨2, ![M, K]⟩ φ₁) (r : FVec Ideal ⟨2, ![K, N]⟩ φ₂) :
    Host.dotGeneral (DotDims.plain M K N) prec l r = rowsTimes l r :=
  funext fun j => Cert.LibPlainDot.dotGeneral_plain prec HostSchedule.single l r j

/-- Rows of the product depend on the same rows of the left operand only: if row p of `xb` is row r of `x`, entry
    (p, q) of `xb · w` is entry (r, q) of `x · w`. -/
theorem rowsTimes_row {M' : Nat} (xb : (⟨2, ![M', K]⟩ : Shape).Idx → EReal) (x : (⟨2, ![M, K]⟩ : Shape).Idx → EReal)
    (w : (⟨2, ![K, N]⟩ : Shape).Idx → EReal) (p : Fin M') (r : Fin M) (q : Fin N)
    (h : ∀ k : Fin K, xb (ix2 p k) = x (ix2 r k)) :
    rowsTimes xb w (ix2 p q) = rowsTimes x w (ix2 r q) :=
  Finset.sum_congr rfl fun k _ => by
    show xb (ix2 p k) * w (ix2 k q) = x (ix2 r k) * w (ix2 k q)
    rw [h k]

end Cert.DenseRows

end
-- ==== Proof.DenseValue.lean ====
/-
  The two dense layers as whole-array products.

  Each layer's pallas_call walks the rows of its left operand in five blocks of 10000 rows; the weight matrix is one
  block, resident. At a grid point the body stores, whole, the product of the row block with the weight matrix into
  a zero accumulator. So block t of the output is  Σ_k x(10000·t + p, k) · w(k, q): rows 10000·t … 10000·t + 9999 of
  the product of the WHOLE arrays. The five row blocks tile the output, so after the region the output array is that
  product — of the arrays as the region finds them, whatever they hold.
-/
import proofs.«153725_j14388140441820_1_alg».proof.Proof.Gen.KernelIdeal.Frame
import proofs.«153725_j14388140441820_1_alg».proof.Proof.RowsTimes
import Idealize.ShloMosaic.Lib.Pipeline.Value
import Idealize.ShloMosaic.Lib.ValueIdx
import Idealize.ShloMosaic.PureOps.Ideal.Laws

set_option maxRecDepth 16384

noncomputable section

namespace Cert.KernelIdeal.DenseValue

open Idealize.ShloMosaic Idealize.ShloMosaic.TcCoe Idealize.ShloMosaic.ValueIdx Idealize.SL.Sem
open Cert.KernelIdeal Cert.KernelIdeal.Gen Cert.DenseRows
open Idealize.ShloMosaic.Pipeline (Dat Cfg Window)

-- The TensorCore's buffer contents when a region is entered: each layer's value is stated at any such contents.
variable (V : (c : Dev nD) → (b : Ref sig .tc) → Buf (Elt Ideal) ((c : Thread nD τ).loc b))

/-- Every access of the bodies starts at the corner of its staging buffer. -/
theorem off_zero : (![0, 0] : Fin 2 → Nat) = fun _ => 0 := funext fun a => by fin_cases a <;> rfl

/-! ## Layer 1: pallas_call 0, rows of `main_arg0` times `main_arg2` -/

section Layer1

/-- The printed dimension numbers of this layer's product are the plain ones. -/
theorem dims0_plain : dot_S10000x128_S128x64_S10000x64_1_0_0_1_n_n = DotDims.plain 10000 128 64 := rfl

/-- What the body stores, as a function of its two loaded blocks: their product (the casts to bf16 before the matrix
    unit are the identity at the extended reals). -/
theorem pay0_eq (x : Vec Ideal S10000x128 .f32) (w : Vec Ideal S128x64 .f32) :
    k0_pay1 x w = rowsTimes (M := 10000) (K := 128) (N := 64) x w := by
  exact matmul_eq_rowsTimes (M := 10000) (K := 128) (N := 64) (φ₁ := .bf16) (φ₂ := .bf16) none x w

/-- The index maps over the grid: the left operand's and the output's blocks begin at row block `t`, column block 0;
    the weight's one block is the whole matrix. -/
theorem idx_facts0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the two arrays as the region finds them: entry (p, q) of
    the block is Σ_k x(10000·t + p, k) · w(k, q). -/
theorem flushed0_eq (c : Dev nD) (t : Fin cfg0.N) :
    (dat0 V c).flushed 2 t
      = ((cfg0.win 2).blk t).view.read (Elt Ideal)
          (rowsTimes (M := 50000) (K := 128) (N := 64) (V c main_arg0) (V c main_arg2)) := by
  show (cfg0.win 2).cut (grid0.coords t) ((dat0 V c).after 2 t) = _
  rw [after0_2]
  unfold out0_2
  rw [View.canon_unit_zero off_zero]
  simp only [View.ld_unit_zero (S := S10000x128) off_zero, View.ld_unit_zero (S := S128x64) off_zero]
  rw [pay0_eq]
  obtain ⟨e0, e1, e2, e3, e4, e5⟩ := idx_facts0 t
  funext j
  obtain ⟨p, q, rfl⟩ : ∃ (p : Fin 10000) (q : Fin 64), j = ix2 p q := ⟨j 0, j 1, eq_ix2 j⟩
  have hp : p.val < 10000 := p.isLt
  have ht : t.val < 5 := lt_of_lt_of_eq t.isLt N_0
  -- the output block's entry (p, q) sits at row 10000·t + p of the array
  have hrow : ((cfg0.win 2).blk t).view.emb (ix2 p q) = ix2 (⟨t.val * 10000 + p.val, by omega⟩ : Fin 50000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show rowsTimes (M := 10000) (K := 128) (N := 64) (iblk0 V c 0 t) (iblk0 V c 1 t) (ix2 p q)
      = rowsTimes (M := 50000) (K := 128) (N := 64) (V c main_arg0) (V c main_arg2) (((cfg0.win 2).blk t).view.emb (ix2 p q))
  rw [hrow]
  -- the weight's block is the whole matrix
  have hw : (iblk0 V c 1 t : S128x64.Idx → EReal) = V c main_arg2 := by
    funext y
    show V c main_arg2 (((cfg0.win 1).blk t).view.emb y) = V c main_arg2 y
    refine congrArg _ ?_
    funext a; apply Fin.ext
    match a with
    | ⟨0, _⟩ => show win0_1.index t (0 : Fin 2) * 128 + 1 * (y 0).val = (y 0).val; omega
    | ⟨1, _⟩ => show win0_1.index t (1 : Fin 2) * 64 + 1 * (y 1).val = (y 1).val; omega
  rw [hw]
  -- row p of the left operand's block is row 10000·t + p of the array
  refine rowsTimes_row _ _ _ p _ q fun k => ?_
  show V c main_arg0 (((cfg0.win 0).blk t).view.emb (ix2 p k)) = V c main_arg0 (ix2 _ k)
  refine congrArg _ ?_
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

/-- An index of the output array is in point `t`'s block iff each coordinate is in the block's range on its axis. -/
theorem mem_blk0 (t : Fin cfg0.N) (i : S50000x64.Idx) :
    i ∈ ((cfg0.win 2).blk t).view.set
      ↔ ∀ a : Fin 2, win0_2.index t a * S10000x64.size a ≤ (i a).val
          ∧ (i a).val < win0_2.index t a * S10000x64.size a + S10000x64.size a := by
  show i ∈ ((View.whole main_v30).slice (win0_2.rect t)).set ↔ _
  rw [View.set_slice_whole, Rect.mem_set_unit]
  exact Iff.rfl

/-- The five row blocks tile the output: row r is in the block of point r / 10000. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : (i 0).val / 10000 < cfg0.N := lt_of_lt_of_eq (by omega : (i 0).val / 10000 < 5) N_0.symm
  refine ⟨⟨(i 0).val / 10000, hN⟩, flush0_2 _, ?_⟩
  rw [mem_blk0]
  obtain ⟨-, -, -, -, e4, e5⟩ := idx_facts0 ⟨(i 0).val / 10000, hN⟩
  have e4' : win0_2.index ⟨(i 0).val / 10000, hN⟩ (0 : Fin 2) = (i 0).val / 10000 := e4
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    omega

/-- THE OUTPUT ARRAY after the region: the product of the two arrays as the region finds them. -/
theorem final0 (c : Dev nD) :
    (dat0 V c).arrAt 2 cfg0.N = rowsTimes (M := 50000) (K := 128) (N := 64) (V c main_arg0) (V c main_arg2) :=
  (dat0 V c).arrAt_eq_of_cover 2 _ (fun t _ => flushed0_eq V c t) cover0

end Layer1

/-! ## Layer 2: pallas_call 1, rows of `main_v47` times `main_arg4` -/

section Layer2

/-- The printed dimension numbers of this layer's product are the plain ones. -/
theorem dims1_plain : dot_S10000x64_S64x64_S10000x64_1_0_0_1_n_n = DotDims.plain 10000 64 64 := rfl

/-- What the body stores, as a function of its two loaded blocks: their product (the casts to bf16 before the matrix
    unit are the identity at the extended reals, and so is the recast of a block to its own shape). -/
theorem pay1_eq (x : Vec Ideal S10000x64 .f32) (w : Vec Ideal S64x64 .f32) :
    k1_pay1 x w = rowsTimes (M := 10000) (K := 64) (N := 64) x w := by
  have h : k1_pay1 x w = matmul (F := Ideal) (φ₁ := .bf16) (φ₂ := .bf16) (DotDims.plain 10000 64 64) none
      (shapeCast S10000x64 x shapeCasts_S10000x64_S10000x64) w (constant ⟨2, ![10000, 64]⟩ .f32 0x00000000#32) := rfl
  rw [h, shapeCast_self]
  exact matmul_eq_rowsTimes (M := 10000) (K := 64) (N := 64) (φ₁ := .bf16) (φ₂ := .bf16) none x w

/-- The index maps over the grid: the left operand's and the output's blocks begin at row block `t`, column block 0;
    the weight's one block is the whole matrix. -/
theorem idx_facts1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the product of the two arrays as the region finds them: entry (p, q) of
    the block is Σ_k x(10000·t + p, k) · w(k, q). -/
theorem flushed1_eq (c : Dev nD) (t : Fin cfg1.N) :
    (dat1 V c).flushed 2 t
      = ((cfg1.win 2).blk t).view.read (Elt Ideal)
          (rowsTimes (M := 50000) (K := 64) (N := 64) (V c main_v47) (V c main_arg4)) := by
  show (cfg1.win 2).cut (grid1.coords t) ((dat1 V c).after 2 t) = _
  rw [after1_2]
  unfold out1_2
  rw [View.canon_unit_zero off_zero]
  simp only [View.ld_unit_zero (S := S10000x64) off_zero, View.ld_unit_zero (S := S64x64) off_zero]
  rw [pay1_eq]
  obtain ⟨e0, e1, e2, e3, e4, e5⟩ := idx_facts1 t
  funext j
  obtain ⟨p, q, rfl⟩ : ∃ (p : Fin 10000) (q : Fin 64), j = ix2 p q := ⟨j 0, j 1, eq_ix2 j⟩
  have hp : p.val < 10000 := p.isLt
  have ht : t.val < 5 := lt_of_lt_of_eq t.isLt N_1
  -- the output block's entry (p, q) sits at row 10000·t + p of the array
  have hrow : ((cfg1.win 2).blk t).view.emb (ix2 p q) = ix2 (⟨t.val * 10000 + p.val, by omega⟩ : Fin 50000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  show rowsTimes (M := 10000) (K := 64) (N := 64) (iblk1 V c 0 t) (iblk1 V c 1 t) (ix2 p q)
      = rowsTimes (M := 50000) (K := 64) (N := 64) (V c main_v47) (V c main_arg4) (((cfg1.win 2).blk t).view.emb (ix2 p q))
  rw [hrow]
  -- the weight's block is the whole matrix
  have hw : (iblk1 V c 1 t : S64x64.Idx → EReal) = V c main_arg4 := by
    funext y
    show V c main_arg4 (((cfg1.win 1).blk t).view.emb y) = V c main_arg4 y
    refine congrArg _ ?_
    funext a; apply Fin.ext
    match a with
    | ⟨0, _⟩ => show win1_1.index t (0 : Fin 2) * 64 + 1 * (y 0).val = (y 0).val; omega
    | ⟨1, _⟩ => show win1_1.index t (1 : Fin 2) * 64 + 1 * (y 1).val = (y 1).val; omega
  rw [hw]
  -- row p of the left operand's block is row 10000·t + p of the array
  refine rowsTimes_row _ _ _ p _ q fun k => ?_
  show V c main_v47 (((cfg1.win 0).blk t).view.emb (ix2 p k)) = V c main_v47 (ix2 _ k)
  refine congrArg _ ?_
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

/-- An index of the output array is in point `t`'s block iff each coordinate is in the block's range on its axis. -/
theorem mem_blk1 (t : Fin cfg1.N) (i : S50000x64.Idx) :
    i ∈ ((cfg1.win 2).blk t).view.set
      ↔ ∀ a : Fin 2, win1_2.index t a * S10000x64.size a ≤ (i a).val
          ∧ (i a).val < win1_2.index t a * S10000x64.size a + S10000x64.size a := by
  show i ∈ ((View.whole main_v48).slice (win1_2.rect t)).set ↔ _
  rw [View.set_slice_whole, Rect.mem_set_unit]
  exact Iff.rfl

/-- The five row blocks tile the output: row r is in the block of point r / 10000. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : (i 0).val / 10000 < cfg1.N := lt_of_lt_of_eq (by omega : (i 0).val / 10000 < 5) N_1.symm
  refine ⟨⟨(i 0).val / 10000, hN⟩, flush1_2 _, ?_⟩
  rw [mem_blk1]
  obtain ⟨-, -, -, -, e4, e5⟩ := idx_facts1 ⟨(i 0).val / 10000, hN⟩
  have e4' : win1_2.index ⟨(i 0).val / 10000, hN⟩ (0 : Fin 2) = (i 0).val / 10000 := e4
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    omega
  | ⟨1, _⟩ =>
    show win1_2.index ⟨(i 0).val / 10000, hN⟩ (1 : Fin 2) * 64 ≤ (i 1).val
      ∧ (i 1).val < win1_2.index ⟨(i 0).val / 10000, hN⟩ (1 : Fin 2) * 64 + 64
    omega

/-- THE OUTPUT ARRAY after the region: the product of the two arrays as the region finds them. -/
theorem final1 (c : Dev nD) :
    (dat1 V c).arrAt 2 cfg1.N = rowsTimes (M := 50000) (K := 64) (N := 64) (V c main_v47) (V c main_arg4) :=
  (dat1 V c).arrAt_eq_of_cover 2 _ (fun t _ => flushed1_eq V c t) cover1

end Layer2

end Cert.KernelIdeal.DenseValue

end
-- ==== Proof.GraphLayer.lean ====
/-
  The graph convolution's host side, as functions of arrays — what both programs apply around their dense products.

  With self-loops appended, the edge list gives 850000 (source, target) pairs. A node's degree is the number of pairs
  it is the target of; its weight is deg^(-1/2) where the degree is positive and 0 elsewhere; an edge's coefficient
  is the product of its two ends' weights. A layer gathers the rows of a feature matrix at the sources, scales each
  by its edge's coefficient, adds them up per target, and adds the bias row. Indexing follows jnp: a negative index
  counts from the end before the gather; the scatter-add takes the targets as they are.

  Every function here is carried whole through the certificate: the two programs apply the same ones, so nothing
  about what a gather or a scatter-add computes is ever needed.
-/
import proofs.«153725_j14388140441820_1_alg».proof.Proof.Gen.KernelIdeal

noncomputable section

namespace Cert.GraphLayer

open Idealize.ShloMosaic Cert.KernelIdeal Cert.KernelIdeal.Facts₀

variable {F : FTy → Type} [FloatOps F]

/-- The sources of the 850000 pairs: row 0 of the edge list, then every node's own number. -/
def sources (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The targets: row 1 of the edge list, then every node's own number. -/
def targets (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A vector of indices as a column. -/
def column (v : (⟨S850000, .i32⟩ : BufTy).Contents (Elt F)) : (⟨S850000x1, .i32⟩ : BufTy).Contents (Elt F) :=
  broadcastInDim S850000x1 ![0] bcast_S850000_S850000x1_0 v

/-- jnp's reading of an index vector before a gather: an index below zero has the number of nodes added; as a column. -/
def wrapped (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- A node's degree: one for every pair it is the target of. -/
def degree (dst : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant (F := F) S_ .f32 0x00000000#32))
    (column dst)
    (broadcastInDim S850000 ![] bcast_S_S850000 (constant (F := F) S_ .f32 0x3F800000#32))

/-- A node's weight: deg^(-1/2) where the degree is positive, 0 elsewhere. -/
def weight (dst : (⟨S850000, .i32⟩ : BufTy).Contents (Elt F)) : (⟨S50000, .f32⟩ : BufTy).Contents (Elt F) :=
  select (cmpf (F := F) .ogt (degree dst) (broadcastInDim S50000 ![] bcast_S_S50000 (constant (F := F) S_ .f32 0x00000000#32)))
    (Host.rsqrt (degree dst))
    (broadcastInDim S50000 ![] bcast_S_S50000 (id (constant (F := F) S_ .f32 0x00000000#32)))

/-- An edge's coefficient: its source's weight times its target's. -/
def coefficient (src dst : (⟨S850000, .i32⟩ : BufTy).Contents (Elt F)) : (⟨S850000, .f32⟩ : BufTy).Contents (Elt F) :=
  mulf (Host.gather gather_S50000_S850000x1_S850000_n_0_n_n_0_1_1 (weight dst) (wrapped src))
    (Host.gather gather_S50000_S850000x1_S850000_n_0_n_n_0_1_1 (weight dst) (wrapped dst))

/-- One layer's aggregation: the rows of `h` at the sources, each scaled by its edge's coefficient, summed per target,
    plus the bias row. -/
def aggregate (h : (⟨S50000x64, .f32⟩ : BufTy).Contents (Elt F)) (src dst : (⟨S850000, .i32⟩ : BufTy).Contents (Elt F))
    (coef : (⟨S850000, .f32⟩ : BufTy).Contents (Elt F)) (b : (⟨S64, .f32⟩ : BufTy).Contents (Elt F)) :
    (⟨S50000x64, .f32⟩ : BufTy).Contents (Elt F) :=
  addf
    (Host.scatterAdd scatter_S50000x64_S850000x1_S850000x64_1_0_0_1
      (broadcastInDim S50000x64 ![] bcast_S_S50000x64 (constant (F := F) S_ .f32 0x00000000#32))
      (column dst)
      (mulf (Host.gather gather_S50000x64_S850000x1_S850000x64_1_0_n_n_0_1_164 h (wrapped src))
        (broadcastInDim S850000x64 ![0, 1] bcast_S850000x1_S850000x64_0_1 (broadcastInDim S850000x1 ![0] bcast_S850000_S850000x1_0 coef))))
    (broadcastInDim S50000x64 ![0, 1] bcast_S1x64_S50000x64_0_1 (broadcastInDim S1x64 ![1] bcast_S64_S1x64_1 b))

/-- The rectifier between the layers. -/
def relu (h : (⟨S50000x64, .f32⟩ : BufTy).Contents (Elt F)) : (⟨S50000x64, .f32⟩ : BufTy).Contents (Elt F) :=
  maximumf h (broadcastInDim S50000x64 ![] bcast_S_S50000x64 (constant (F := F) S_ .f32 0x00000000#32))

/-- The two layers over a pair of dense products: what either program computes, its two products the parameters. -/
def network
    (dense₁ : (⟨S50000x128, .f32⟩ : BufTy).Contents (Elt F) → (⟨S128x64, .f32⟩ : BufTy).Contents (Elt F) → (⟨S50000x64, .f32⟩ : BufTy).Contents (Elt F))
    (dense₂ : (⟨S50000x64, .f32⟩ : BufTy).Contents (Elt F) → (⟨S64x64, .f32⟩ : BufTy).Contents (Elt F) → (⟨S50000x64, .f32⟩ : BufTy).Contents (Elt F))
    (x : (⟨S50000x128, .f32⟩ : BufTy).Contents (Elt F)) (ei : (⟨S2x800000, .i32⟩ : BufTy).Contents (Elt F))
    (w₁ : (⟨S128x64, .f32⟩ : BufTy).Contents (Elt F)) (b₁ : (⟨S64, .f32⟩ : BufTy).Contents (Elt F))
    (w₂ : (⟨S64x64, .f32⟩ : BufTy).Contents (Elt F)) (b₂ : (⟨S64, .f32⟩ : BufTy).Contents (Elt F)) :
    (⟨S50000x64, .f32⟩ : BufTy).Contents (Elt F) :=
  aggregate
    (dense₂ (relu (aggregate (dense₁ x w₁) (sources ei) (targets ei) (coefficient (sources ei) (targets ei)) b₁)) w₂)
    (sources ei) (targets ei) (coefficient (sources ei) (targets ei)) b₂

end Cert.GraphLayer

end
-- ==== Proof.HostValue.lean ====
/-
  @main's host stretches, read back.

  @main is three runs of host operations with the two dense layers between them. Over ANY buffer contents `X` at a
  run's start, what the run leaves in the buffers the next part reads is one of the graph functions of what `X` holds:
  before the first layer, the sources, the targets and the edge coefficients of the edge list; between the layers,
  the rectified aggregation of the first layer's product; after the second layer, the aggregation of its product.
  A run leaves every buffer it does not write as it found it.
-/
import proofs.«153725_j14388140441820_1_alg».proof.Proof.Gen.KernelIdeal.Launch
import proofs.«153725_j14388140441820_1_alg».proof.Proof.GraphLayer
import Idealize.ShloMosaic.Lib.StableHlo.Run

set_option maxRecDepth 16384

noncomputable section

namespace Cert.KernelIdeal.HostValue

open Idealize.ShloMosaic Idealize.ShloMosaic.StableHlo Idealize.SL.Sem
open Cert.KernelIdeal Cert.KernelIdeal.Gen Cert.GraphLayer

variable {F : FTy → Type} [FloatOps F] (X : Valuation τ sig (Elt F))

/-- No operation of the named list writes the buffer in question: each writes its one result buffer, another one. -/
macro "not_written " ops:ident : tactic => `(tactic| (
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Reads each remaining operation's result at its own buffer, and at any other buffer what was there before it, by
    rewriting: what the one-pass reading leaves inside a concatenation's list of operands. -/
macro "results_by_rewriting" : tactic => `(tactic| (repeat (first
  | rw [nullary_result] | rw [unary_result] | rw [binary_result] | rw [ternary_result] | rw [reshape_result]
  | (rw [nullary_result_ne]; rotate_left; decide)
  | (rw [unary_result_ne]; rotate_left; decide)
  | (rw [binary_result_ne]; rotate_left; decide)
  | (rw [ternary_result_ne]; rotate_left; decide)
  | (rw [reshape_result_ne]; rotate_left; decide))))

/-! ## Before the first layer: 40 operations on the edge list -/

theorem sources_pre : after hostOps0_2 (after hostOps0_1 (after hostOps0 X)) (Proc.devRef .tc main_v3) = sources (X (Proc.devRef .tc main_arg1)) := by
  dsimp only [hostOps0, hostOps0_1, hostOps0_2]
  after_results
  rfl

theorem targets_pre : after hostOps0_2 (after hostOps0_1 (after hostOps0 X)) (Proc.devRef .tc main_v6) = targets (X (Proc.devRef .tc main_arg1)) := by
  dsimp only [hostOps0, hostOps0_1, hostOps0_2]
  after_results
  rfl

set_option maxHeartbeats 4000000 in
theorem coefficient_pre :
    after hostOps0_2 (after hostOps0_1 (after hostOps0 X)) (Proc.devRef .tc main_v29) = coefficient (sources (X (Proc.devRef .tc main_arg1))) (targets (X (Proc.devRef .tc main_arg1))) := by
  dsimp only [hostOps0, hostOps0_1, hostOps0_2]
  after_results_simp
  results_by_rewriting
  rfl

theorem keeps_pre_main_arg0 : after hostOps0_2 (after hostOps0_1 (after hostOps0 X)) (Proc.devRef .tc main_arg0) = X (Proc.devRef .tc main_arg0) := by
  refine (StableHlo.after_of_forall_not_mem (b := (Proc.devRef .tc main_arg0)) _ _ (List.forall_iff_forall_mem.mp (by not_written hostOps0_2))).trans ?_
  refine (StableHlo.after_of_forall_not_mem (b := (Proc.devRef .tc main_arg0)) _ _ (List.forall_iff_forall_mem.mp (by not_written hostOps0_1))).trans ?_
  refine (StableHlo.after_of_forall_not_mem (b := (Proc.devRef .tc main_arg0)) _ _ (List.forall_iff_forall_mem.mp (by not_written hostOps0))).trans ?_
  rfl

theorem keeps_pre_main_arg2 : after hostOps0_2 (after hostOps0_1 (after hostOps0 X)) (Proc.devRef .tc main_arg2) = X (Proc.devRef .tc main_arg2) := by
  refine (StableHlo.after_of_forall_not_mem (b := (Proc.devRef .tc main_arg2)) _ _ (List.forall_iff_forall_mem.mp (by not_written hostOps0_2))).trans ?_
  refine (StableHlo.after_of_forall_not_mem (b := (Proc.devRef .tc main_arg2)) _ _ (List.forall_iff_forall_mem.mp (by not_written hostOps0_1))).trans ?_
  refine (StableHlo.after_of_forall_not_mem (b := (Proc.devRef .tc main_arg2)) _ _ (List.forall_iff_forall_mem.mp (by not_written hostOps0))).trans ?_
  rfl

theorem keeps_pre_main_arg3 : after hostOps0_2 (after hostOps0_1 (after hostOps0 X)) (Proc.devRef .tc main_arg3) = X (Proc.devRef .tc main_arg3) := by
  refine (StableHlo.after_of_forall_not_mem (b := (Proc.devRef .tc main_arg3)) _ _ (List.forall_iff_forall_mem.mp (by not_written hostOps0_2))).trans ?_
  refine (StableHlo.after_of_forall_not_mem (b := (Proc.devRef .tc main_arg3)) _ _ (List.forall_iff_forall_mem.mp (by not_written hostOps0_1))).trans ?_
  refine (StableHlo.after_of_forall_not_mem (b := (Proc.devRef .tc main_arg3)) _ _ (List.forall_iff_forall_mem.mp (by not_written hostOps0))).trans ?_
  rfl

theorem keeps_pre_main_arg4 : after hostOps0_2 (after hostOps0_1 (after hostOps0 X)) (Proc.devRef .tc main_arg4) = X (Proc.devRef .tc main_arg4) := by
  refine (StableHlo.after_of_forall_not_mem (b := (Proc.devRef .tc main_arg4)) _ _ (List.forall_iff_forall_mem.mp (by not_written hostOps0_2))).trans ?_
  refine (StableHlo.after_of_forall_not_mem (b := (Proc.devRef .tc main_arg4)) _ _ (List.forall_iff_forall_mem.mp (by not_written hostOps0_1))).trans ?_
  refine (StableHlo.after_of_forall_not_mem (b := (Proc.devRef .tc main_arg4)) _ _ (List.forall_iff_forall_mem.mp (by not_written hostOps0))).trans ?_
  rfl

theorem keeps_pre_main_arg5 : after hostOps0_2 (after hostOps0_1 (after hostOps0 X)) (Proc.devRef .tc main_arg5) = X (Proc.devRef .tc main_arg5) := by
  refine (StableHlo.after_of_forall_not_mem (b := (Proc.devRef .tc main_arg5)) _ _ (List.forall_iff_forall_mem.mp (by not_written hostOps0_2))).trans ?_
  refine (StableHlo.after_of_forall_not_mem (b := (Proc.devRef .tc main_arg5)) _ _ (List.forall_iff_forall_mem.mp (by not_written hostOps0_1))).trans ?_
  refine (StableHlo.after_of_forall_not_mem (b := (Proc.devRef .tc main_arg5)) _ _ (List.forall_iff_forall_mem.mp (by not_written hostOps0))).trans ?_
  rfl

/-! ## Between the layers: 22 operations on the first product -/

set_option maxHeartbeats 4000000 in
theorem hidden_mid :
    after hostOps1_1 (after hostOps1 X) (Proc.devRef .tc main_v47)
      = relu (aggregate (X (Proc.devRef .tc main_v30)) (X (Proc.devRef .tc main_v3)) (X (Proc.devRef .tc main_v6)) (X (Proc.devRef .tc main_v29)) (X (Proc.devRef .tc main_arg3))) := by
  dsimp only [hostOps1, hostOps1_1]
  after_results_simp
  rfl

theorem keeps_mid_main_v3 : after hostOps1_1 (after hostOps1 X) (Proc.devRef .tc main_v3) = X (Proc.devRef .tc main_v3) := by
  refine (StableHlo.after_of_forall_not_mem (b := (Proc.devRef .tc main_v3)) _ _ (List.forall_iff_forall_mem.mp (by not_written hostOps1_1))).trans ?_
  refine (StableHlo.after_of_forall_not_mem (b := (Proc.devRef .tc main_v3)) _ _ (List.forall_iff_forall_mem.mp (by not_written hostOps1))).trans ?_
  rfl

theorem keeps_mid_main_v6 : after hostOps1_1 (after hostOps1 X) (Proc.devRef .tc main_v6) = X (Proc.devRef .tc main_v6) := by
  refine (StableHlo.after_of_forall_not_mem (b := (Proc.devRef .tc main_v6)) _ _ (List.forall_iff_forall_mem.mp (by not_written hostOps1_1))).trans ?_
  refine (StableHlo.after_of_forall_not_mem (b := (Proc.devRef .tc main_v6)) _ _ (List.forall_iff_forall_mem.mp (by not_written hostOps1))).trans ?_
  rfl

theorem keeps_mid_main_v29 : after hostOps1_1 (after hostOps1 X) (Proc.devRef .tc main_v29) = X (Proc.devRef .tc main_v29) := by
  refine (StableHlo.after_of_forall_not_mem (b := (Proc.devRef .tc main_v29)) _ _ (List.forall_iff_forall_mem.mp (by not_written hostOps1_1))).trans ?_
  refine (StableHlo.after_of_forall_not_mem (b := (Proc.devRef .tc main_v29)) _ _ (List.forall_iff_forall_mem.mp (by not_written hostOps1))).trans ?_
  rfl

theorem keeps_mid_main_arg4 : after hostOps1_1 (after hostOps1 X) (Proc.devRef .tc main_arg4) = X (Proc.devRef .tc main_arg4) := by
  refine (StableHlo.after_of_forall_not_mem (b := (Proc.devRef .tc main_arg4)) _ _ (List.forall_iff_forall_mem.mp (by not_written hostOps1_1))).trans ?_
  refine (StableHlo.after_of_forall_not_mem (b := (Proc.devRef .tc main_arg4)) _ _ (List.forall_iff_forall_mem.mp (by not_written hostOps1))).trans ?_
  rfl

theorem keeps_mid_main_arg5 : after hostOps1_1 (after hostOps1 X) (Proc.devRef .tc main_arg5) = X (Proc.devRef .tc main_arg5) := by
  refine (StableHlo.after_of_forall_not_mem (b := (Proc.devRef .tc main_arg5)) _ _ (List.forall_iff_forall_mem.mp (by not_written hostOps1_1))).trans ?_
  refine (StableHlo.after_of_forall_not_mem (b := (Proc.devRef .tc main_arg5)) _ _ (List.forall_iff_forall_mem.mp (by not_written hostOps1))).trans ?_
  rfl

/-! ## After the second layer: 19 operations on the second product -/

set_option maxHeartbeats 4000000 in
theorem result_post :
    after hostOps2 X (Proc.devRef .tc main_v64)
      = aggregate (X (Proc.devRef .tc main_v48)) (X (Proc.devRef .tc main_v3)) (X (Proc.devRef .tc main_v6)) (X (Proc.devRef .tc main_v29)) (X (Proc.devRef .tc main_arg5)) := by
  dsimp only [hostOps2]
  after_results_simp
  rfl

end Cert.KernelIdeal.HostValue

end
-- ==== Proof.KernelValue.lean ====
/-
  The kernel program's result as the two-layer network over the product.

  @main's buffers at each boundary are a fold from the launch memory: a host stretch's operations, or a region's
  output array at what its write-backs leave. Read back from the end: the result is the aggregation of the second
  region's array; that array is the product of the rectified aggregation of the first region's array with W₂; the
  first region's array is the product of x with W₁; the sources, targets and edge coefficients are computed once,
  before the first layer, and no later stretch or region writes them — nor any argument array.
-/
import proofs.«153725_j14388140441820_1_alg».proof.Proof.Gen.KernelIdeal.Frame
import proofs.«153725_j14388140441820_1_alg».proof.Proof.DenseValue
import proofs.«153725_j14388140441820_1_alg».proof.Proof.HostValue
import proofs.«153725_j14388140441820_1_alg».proof.Proof.GraphLayer

set_option maxRecDepth 16384

noncomputable section

namespace Cert.KernelIdeal.KernelValue

open Idealize.ShloMosaic Idealize.ShloMosaic.TcCoe Idealize.ShloMosaic.StableHlo Idealize.SL.Sem
open Cert.KernelIdeal Cert.KernelIdeal.Gen Cert.GraphLayer Cert.DenseRows
open Cert.KernelIdeal.HostValue Cert.KernelIdeal.DenseValue

variable (m : (ℓ : Loc nD τ sig) → Buf (Elt Ideal) ℓ) (ρ : Dev nD → PrngReg) (c : Dev nD)

/-! ## At the first layer's entry -/

theorem src₃ : W3 m ρ c (Proc.devRef .tc main_v3) = sources (m ((c : Thread nD τ).loc main_arg1)) := sources_pre (W0 m ρ c)
theorem dst₃ : W3 m ρ c (Proc.devRef .tc main_v6) = targets (m ((c : Thread nD τ).loc main_arg1)) := targets_pre (W0 m ρ c)
theorem coef₃ : W3 m ρ c (Proc.devRef .tc main_v29) = coefficient (sources (m ((c : Thread nD τ).loc main_arg1))) (targets (m ((c : Thread nD τ).loc main_arg1))) :=
  coefficient_pre (W0 m ρ c)
theorem arg0₃ : W3 m ρ c (Proc.devRef .tc main_arg0) = (m ((c : Thread nD τ).loc main_arg0)) := keeps_pre_main_arg0 (W0 m ρ c)
theorem arg2₃ : W3 m ρ c (Proc.devRef .tc main_arg2) = (m ((c : Thread nD τ).loc main_arg2)) := keeps_pre_main_arg2 (W0 m ρ c)
theorem arg3₃ : W3 m ρ c (Proc.devRef .tc main_arg3) = (m ((c : Thread nD τ).loc main_arg3)) := keeps_pre_main_arg3 (W0 m ρ c)
theorem arg4₃ : W3 m ρ c (Proc.devRef .tc main_arg4) = (m ((c : Thread nD τ).loc main_arg4)) := keeps_pre_main_arg4 (W0 m ρ c)
theorem arg5₃ : W3 m ρ c (Proc.devRef .tc main_arg5) = (m ((c : Thread nD τ).loc main_arg5)) := keeps_pre_main_arg5 (W0 m ρ c)

/-! ## The first layer's array, and what the region leaves alone -/

/-- After the first region its output array is x · W₁. -/
theorem dense₁ : W4 m ρ c (Proc.devRef .tc main_v30) = rowsTimes (M := 50000) (K := 128) (N := 64) (m ((c : Thread nD τ).loc main_arg0)) (m ((c : Thread nD τ).loc main_arg2)) := by
  refine (W4_arr m ρ c 2).trans ((final0 (V3 m ρ) c).trans ?_)
  show rowsTimes (M := 50000) (K := 128) (N := 64) (W3 m ρ c (Proc.devRef .tc main_arg0)) (W3 m ρ c (Proc.devRef .tc main_arg2)) = _
  rw [arg0₃, arg2₃]

theorem src₄ : W4 m ρ c (Proc.devRef .tc main_v3) = sources (m ((c : Thread nD τ).loc main_arg1)) := (W4_of_ne m ρ c main_v3 (by decide)).trans (src₃ m ρ c)
theorem dst₄ : W4 m ρ c (Proc.devRef .tc main_v6) = targets (m ((c : Thread nD τ).loc main_arg1)) := (W4_of_ne m ρ c main_v6 (by decide)).trans (dst₃ m ρ c)
theorem coef₄ : W4 m ρ c (Proc.devRef .tc main_v29) = coefficient (sources (m ((c : Thread nD τ).loc main_arg1))) (targets (m ((c : Thread nD τ).loc main_arg1))) :=
  (W4_of_ne m ρ c main_v29 (by decide)).trans (coef₃ m ρ c)
theorem arg3₄ : W4 m ρ c (Proc.devRef .tc main_arg3) = (m ((c : Thread nD τ).loc main_arg3)) := (W4_of_ne m ρ c main_arg3 (by decide)).trans (arg3₃ m ρ c)
theorem arg4₄ : W4 m ρ c (Proc.devRef .tc main_arg4) = (m ((c : Thread nD τ).loc main_arg4)) := (W4_of_ne m ρ c main_arg4 (by decide)).trans (arg4₃ m ρ c)
theorem arg5₄ : W4 m ρ c (Proc.devRef .tc main_arg5) = (m ((c : Thread nD τ).loc main_arg5)) := (W4_of_ne m ρ c main_arg5 (by decide)).trans (arg5₃ m ρ c)

/-! ## At the second layer's entry -/

/-- The second layer's input: the rectified aggregation of x · W₁. -/
theorem hidden₆ : W6 m ρ c (Proc.devRef .tc main_v47)
    = relu (aggregate (rowsTimes (M := 50000) (K := 128) (N := 64) (m ((c : Thread nD τ).loc main_arg0)) (m ((c : Thread nD τ).loc main_arg2))) (sources (m ((c : Thread nD τ).loc main_arg1))) (targets (m ((c : Thread nD τ).loc main_arg1)))
        (coefficient (sources (m ((c : Thread nD τ).loc main_arg1))) (targets (m ((c : Thread nD τ).loc main_arg1)))) (m ((c : Thread nD τ).loc main_arg3))) := by
  refine (hidden_mid (W4 m ρ c)).trans ?_
  rw [dense₁, src₄, dst₄, coef₄, arg3₄]

theorem src₆ : W6 m ρ c (Proc.devRef .tc main_v3) = sources (m ((c : Thread nD τ).loc main_arg1)) := (keeps_mid_main_v3 (W4 m ρ c)).trans (src₄ m ρ c)
theorem dst₆ : W6 m ρ c (Proc.devRef .tc main_v6) = targets (m ((c : Thread nD τ).loc main_arg1)) := (keeps_mid_main_v6 (W4 m ρ c)).trans (dst₄ m ρ c)
theorem coef₆ : W6 m ρ c (Proc.devRef .tc main_v29) = coefficient (sources (m ((c : Thread nD τ).loc main_arg1))) (targets (m ((c : Thread nD τ).loc main_arg1))) :=
  (keeps_mid_main_v29 (W4 m ρ c)).trans (coef₄ m ρ c)
theorem arg4₆ : W6 m ρ c (Proc.devRef .tc main_arg4) = (m ((c : Thread nD τ).loc main_arg4)) := (keeps_mid_main_arg4 (W4 m ρ c)).trans (arg4₄ m ρ c)
theorem arg5₆ : W6 m ρ c (Proc.devRef .tc main_arg5) = (m ((c : Thread nD τ).loc main_arg5)) := (keeps_mid_main_arg5 (W4 m ρ c)).trans (arg5₄ m ρ c)

/-! ## The second layer's array -/

/-- After the second region its output array is (the second layer's input) · W₂. -/
theorem dense₂ : W7 m ρ c (Proc.devRef .tc main_v48)
    = rowsTimes (M := 50000) (K := 64) (N := 64)
        (relu (aggregate (rowsTimes (M := 50000) (K := 128) (N := 64) (m ((c : Thread nD τ).loc main_arg0)) (m ((c : Thread nD τ).loc main_arg2))) (sources (m ((c : Thread nD τ).loc main_arg1))) (targets (m ((c : Thread nD τ).loc main_arg1)))
          (coefficient (sources (m ((c : Thread nD τ).loc main_arg1))) (targets (m ((c : Thread nD τ).loc main_arg1)))) (m ((c : Thread nD τ).loc main_arg3))))
        (m ((c : Thread nD τ).loc main_arg4)) := by
  refine (W7_arr m ρ c 2).trans ((final1 (V6 m ρ) c).trans ?_)
  show rowsTimes (M := 50000) (K := 64) (N := 64) (W6 m ρ c (Proc.devRef .tc main_v47)) (W6 m ρ c (Proc.devRef .tc main_arg4)) = _
  rw [hidden₆, arg4₆]

theorem src₇ : W7 m ρ c (Proc.devRef .tc main_v3) = sources (m ((c : Thread nD τ).loc main_arg1)) := (W7_of_ne m ρ c main_v3 (by decide)).trans (src₆ m ρ c)
theorem dst₇ : W7 m ρ c (Proc.devRef .tc main_v6) = targets (m ((c : Thread nD τ).loc main_arg1)) := (W7_of_ne m ρ c main_v6 (by decide)).trans (dst₆ m ρ c)
theorem coef₇ : W7 m ρ c (Proc.devRef .tc main_v29) = coefficient (sources (m ((c : Thread nD τ).loc main_arg1))) (targets (m ((c : Thread nD τ).loc main_arg1))) :=
  (W7_of_ne m ρ c main_v29 (by decide)).trans (coef₆ m ρ c)
theorem arg5₇ : W7 m ρ c (Proc.devRef .tc main_arg5) = (m ((c : Thread nD τ).loc main_arg5)) := (W7_of_ne m ρ c main_arg5 (by decide)).trans (arg5₆ m ρ c)

/-! ## The result -/

/-- THE KERNEL PROGRAM'S RESULT at the extended reals: the network over the product, of the argument arrays. -/
theorem result : W8 m ρ c (Proc.devRef .tc main_v64)
    = network (F := Ideal) (rowsTimes (M := 50000) (K := 128) (N := 64)) (rowsTimes (M := 50000) (K := 64) (N := 64))
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (result_post (W7 m ρ c)).trans ?_
  rw [dense₂, src₇, dst₇, coef₇, arg5₇]
  rfl

end Cert.KernelIdeal.KernelValue

end
-- ==== Proof.RefValue.lean ====
/-
  The reference's result as the two-layer network over its own dense products.

  The reference applies, around two host `dot_general`s, the same graph operations as the kernel's program; it
  computes the edge coefficients once per layer, by the same operations of the same edge list, so both layers use
  the one function of the edge list. Its run's result term is therefore the network function with the `dot_general`s
  for its two products — by unfolding alone —, and at the extended reals each `dot_general` is the product
  Σ_k x(p, k) · w(k, q).
-/
import proofs.«153725_j14388140441820_1_alg».proof.Proof.RefRun
import proofs.«153725_j14388140441820_1_alg».proof.Proof.GraphLayer
import proofs.«153725_j14388140441820_1_alg».proof.Proof.RowsTimes

set_option maxRecDepth 16384

noncomputable section

namespace Cert.ReferenceIdeal.RefValue

open Idealize.ShloMosaic Idealize.ShloMosaic.TcCoe Idealize.SL.Sem
open Cert.ReferenceIdeal Cert.ReferenceIdeal.Gen Cert.GraphLayer Cert.DenseRows

section AnyFloats

variable {F : FTy → Type} [FloatOps F]

/-- The first layer's product as the reference computes it. -/
def refDense₁ (x : (⟨S50000x128, .f32⟩ : BufTy).Contents (Elt F)) (w : (⟨S128x64, .f32⟩ : BufTy).Contents (Elt F)) :
    (⟨S50000x64, .f32⟩ : BufTy).Contents (Elt F) :=
  Host.dotGeneral dot_S50000x128_S128x64_S50000x64_1_0_0_1_n_n none x w

/-- The second layer's. -/
def refDense₂ (h : (⟨S50000x64, .f32⟩ : BufTy).Contents (Elt F)) (w : (⟨S64x64, .f32⟩ : BufTy).Contents (Elt F)) :
    (⟨S50000x64, .f32⟩ : BufTy).Contents (Elt F) :=
  Host.dotGeneral dot_S50000x64_S64x64_S50000x64_1_0_0_1_n_n none h w

set_option maxHeartbeats 4000000 in
/-- The run's result term IS the network over the reference's two products, of the argument arrays: the same
    operations in the same order, the second layer's coefficients the first's. -/
theorem res_eq_network (m : (ℓ : Loc nD τ sig) → Buf (Elt F) ℓ) (c : Dev nD) :
    Cert.ReferenceIdeal.Value.res_main_v87 m c
      = network (F := F) refDense₁ refDense₂ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.Value.res_main_v87
  rfl

end AnyFloats

/-- The printed dimension numbers of the reference's products are the plain ones. -/
theorem dims₁_plain : dot_S50000x128_S128x64_S50000x64_1_0_0_1_n_n = DotDims.plain 50000 128 64 := rfl
theorem dims₂_plain : dot_S50000x64_S64x64_S50000x64_1_0_0_1_n_n = DotDims.plain 50000 64 64 := rfl

/-- At the extended reals the reference's first product is Σ_k x(p, k) · w(k, q). -/
theorem refDense₁_eq : refDense₁ (F := Ideal) = rowsTimes (M := 50000) (K := 128) (N := 64) := by
  funext x w
  unfold refDense₁
  rw [dims₁_plain]
  exact dotGeneral_eq_rowsTimes (M := 50000) (K := 128) (N := 64) (φ₁ := .f32) (φ₂ := .f32) none x w

/-- And its second. -/
theorem refDense₂_eq : refDense₂ (F := Ideal) = rowsTimes (M := 50000) (K := 64) (N := 64) := by
  funext h w
  unfold refDense₂
  rw [dims₂_plain]
  exact dotGeneral_eq_rowsTimes (M := 50000) (K := 64) (N := 64) (φ₁ := .f32) (φ₂ := .f32) none h w

/-- THE REFERENCE'S RESULT at the extended reals: the network over the two products, of the argument arrays. -/
theorem result (m : (ℓ : Loc nD τ sig) → Buf (Elt Ideal) ℓ) (c : Dev nD) :
    Cert.ReferenceIdeal.Value.res_main_v87 m c
      = network (F := Ideal) (rowsTimes (M := 50000) (K := 128) (N := 64)) (rowsTimes (M := 50000) (K := 64) (N := 64))
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [res_eq_network, refDense₁_eq, refDense₂_eq]

end Cert.ReferenceIdeal.RefValue

end
-- ==== Proof.lean ====
/-
  Two stacked graph-convolution layers, x' = D^(-1/2) (A + I) D^(-1/2) (x W) + b, over the extended reals.

  The kernel's program computes each layer's dense product x W in a pallas_call — five row blocks of 10000 rows,
  the weight matrix resident, the operands cast to bf16 before the matrix unit, an f32 accumulator starting at
  zero — and leaves the gather, the scaling by the edge coefficients and the scatter-add to host operations; the
  reference computes the products by `dot_general` and applies the same host operations. At the extended reals a
  change of float format is the identity and both products are Σ_k x(p, k) · w(k, q), so each pallas_call's output
  array is the reference's product, block by block, the blocks tiling the rows. Around the products the two programs
  apply the same functions of the same arrays (the reference computes the edge coefficients twice, by the same
  operations), and those functions are carried whole: no law of the extended reals beyond the reading of the two
  products as that sum is used, and the precondition (finite inputs) is never opened.

  Proof/RowsTimes: the product as one function, and the two machine products that compute it.
  Proof/DenseValue: each region's output array after the run is the product of the arrays the region finds.
  Proof/GraphLayer: the host side's functions (sources, targets, edge coefficients, aggregation, rectifier) and the network.
  Proof/HostValue: @main's three host stretches read back as those functions; what a stretch does not write.
  Proof/KernelRun: the kernel program's run with the result buffer kept at the last boundary's contents.
  Proof/KernelValue: those contents are the network over the product, of the arguments.
  Proof/RefRun, Proof/RefValue: the reference's run, and its result term as the same network.
-/
import proofs.«153725_j14388140441820_1_alg».proof.Defs
import proofs.«153725_j14388140441820_1_alg».proof.Proof.Gen.Kernel
import proofs.«153725_j14388140441820_1_alg».proof.Proof.Gen.Kernel.Frame
import proofs.«153725_j14388140441820_1_alg».proof.Proof.Gen.KernelIdeal
import proofs.«153725_j14388140441820_1_alg».proof.Proof.Gen.KernelIdeal.Frame
import proofs.«153725_j14388140441820_1_alg».proof.Proof.Gen.ReferenceIdeal
import proofs.«153725_j14388140441820_1_alg».proof.Proof.Gen.Pre_finite_inputs
import proofs.«153725_j14388140441820_1_alg».proof.Proof.KernelRun
import proofs.«153725_j14388140441820_1_alg».proof.Proof.KernelValue
import proofs.«153725_j14388140441820_1_alg».proof.Proof.RefRun
import proofs.«153725_j14388140441820_1_alg».proof.Proof.RefValue
import Idealize.ShloMosaic.Adequacy
import Idealize.ShloMosaic.Init

noncomputable section

namespace Cert.Proof

open Idealize.ShloMosaic Idealize.ShloMosaic.TcCoe Idealize.SL.Sem Cert.GraphLayer Cert.DenseRows

/-- The word-level kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the extended reals. -/
theorem preserves : Cert.preserves_Kernel_KernelIdeal := trivial

/-- The kernel program's run, its result named: the network over the product, of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v64)
          = network (F := Ideal) (rowsTimes (M := 50000) (K := 128) (N := 64)) (rowsTimes (M := 50000) (K := 64) (N := 64))
              (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.KernelValue.result m ρ c), (h c).2⟩)
    (Cert.KernelIdeal.ValueRun.run_value (F := Ideal) m ρ)

/-- From memories agreeing on the arguments both programs end with the network over the product, of those
    arguments: the kernel program by its run read back, the reference by its result term. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result m' c, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
